-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel
  bcast_S_S4000000x3 : S_.BroadcastsInDim S4000000x3 (![] : Fin 0 → Fin S4000000x3.rank)
  reducesTo_S4000000x3_S_d0_1 : S4000000x3.ReducesTo [0, 1] S_
  reducesTo_S4000000x4_S4000000_d1 : S4000000x4.ReducesTo [1] S4000000
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x4 .f32) (main_arg1 : FVec F S4000000x3 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  let main_v9 : FVec F S4000000x4 .f32 := mulf main_arg0 main_arg0
  let main_cst_2 : FVec F S_ .f32 := constant S_ .f32 0x00000000#32
  let main_v10 : FVec F S4000000 .f32 := (fun x v => Host.reduceAdd x v reducesTo_S4000000x4_S4000000_d1 h_S_) main_v9 main_cst_2
  let main_cst_3 : FVec F S_ .f32 := constant S_ .f32 0x00000000#32
  let main_v11 : FVec F S4000000 .f32 := broadcastInDim S4000000 ![] bcast_S_S4000000 main_cst_3
  let main_v12 : IVec S4000000 1 := cmpf .ogt main_v10 main_v11
  let main_c_4 : IVec S_ 1 := constantI S_ 1 1#1
  let main_v13 : IVec S_ 1 := (fun x v => Host.reduce IntOp.andi x v reducesTo_S4000000_S_d0 h_S_) main_v12 main_c_4
  let main_v14 : IVec S_ 1 := andi main_v8 main_v13
  main_v14
-- ==== Kernel.lean ====
abbrev S4000000x4 : Shape := ⟨2, ![4000000, 4]⟩
abbrev S4000000x3 : Shape := ⟨2, ![4000000, 3]⟩
abbrev S4000000x9 : Shape := ⟨2, ![4000000, 9]⟩
abbrev S6400x4 : Shape := ⟨2, ![6400, 4]⟩
abbrev S6400x3 : Shape := ⟨2, ![6400, 3]⟩
abbrev S6400x9 : Shape := ⟨2, ![6400, 9]⟩
abbrev S4x6400 : Shape := ⟨2, ![4, 6400]⟩
abbrev S3x6400 : Shape := ⟨2, ![3, 6400]⟩
abbrev S1x6400 : Shape := ⟨2, ![1, 6400]⟩
abbrev S9x6400 : Shape := ⟨2, ![9, 6400]⟩
abbrev S4000000x3x3 : Shape := ⟨3, ![4000000, 3, 3]⟩

abbrev nBuf : Space → Nat
  | .hbm => 4
  | .vmem => 6
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x9, .f32⟩
  | .hbm, ⟨3, _⟩ => ⟨S4000000x3x3, .f32⟩
  | .local _ .vmem, ⟨0, _⟩ => ⟨S6400x4, .f32⟩
  | .local _ .vmem, ⟨1, _⟩ => ⟨S6400x4, .f32⟩
  | .local _ .vmem, ⟨2, _⟩ => ⟨S6400x3, .f32⟩
  | .local _ .vmem, ⟨3, _⟩ => ⟨S6400x3, .f32⟩
  | .local _ .vmem, ⟨4, _⟩ => ⟨S6400x9, .f32⟩
  | .local _ .vmem, ⟨5, _⟩ => ⟨S6400x9, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S6400x4_S6400x4_0_0 : ∀ a, (![0, 0] : Fin 2 → Nat) a + S6400x4.size a ≤ S6400x4.size a
  h_S6400x4 : 0 < S6400x4.numel
  inb_S6400x3_S6400x3_0_0 : ∀ a, (![0, 0] : Fin 2 → Nat) a + S6400x3.size a ≤ S6400x3.size a
  h_S6400x3 : 0 < S6400x3.numel
  transposes_S6400x4_p1_0_S4x6400 : S6400x4.Transposes [1, 0] S4x6400
  transposes_S6400x3_p1_0_S3x6400 : S6400x3.Transposes [1, 0] S3x6400
  slices_S4x6400_o0_0_S1x6400 : S4x6400.Slices ![0, 0] S1x6400
  slices_S4x6400_o1_0_S1x6400 : S4x6400.Slices ![1, 0] S1x6400
  slices_S4x6400_o2_0_S1x6400 : S4x6400.Slices ![2, 0] S1x6400
  slices_S4x6400_o3_0_S1x6400 : S4x6400.Slices ![3, 0] S1x6400
  slices_S3x6400_o0_0_S1x6400 : S3x6400.Slices ![0, 0] S1x6400
  slices_S3x6400_o1_0_S1x6400 : S3x6400.Slices ![1, 0] S1x6400
  slices_S3x6400_o2_0_S1x6400 : S3x6400.Slices ![2, 0] S1x6400
  concatenates_S1x6400_S1x6400_S1x6400_S1x6400_S1x6400_S1x6400_S1x6400_S1x6400_S1x6400_S9x6400_d0 : Shape.Concatenates [S1x6400, S1x6400, S1x6400, S1x6400, S1x6400, S1x6400, S1x6400, S1x6400, S1x6400] S9x6400 0
  transposes_S9x6400_p1_0_S6400x9 : S9x6400.Transposes [1, 0] S6400x9
  inb_S6400x9_S6400x9_0_0 : ∀ a, (![0, 0] : Fin 2 → Nat) a + S6400x9.size a ≤ S6400x9.size a
  h_S6400x9 : 0 < S6400x9.numel
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x4.size a ≤ S4000000x4.size a
  hwx0_0 : ∀ i : grid0.Coords, EltTy.bits .f32 = 32 ∨ (Rect.block (s := S4000000x4) S6400x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x3.size a ≤ S4000000x3.size a
  hwx0_1 : ∀ i : grid0.Coords, EltTy.bits .f32 = 32 ∨ (Rect.block (s := S4000000x3) S6400x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x9.size a ≤ S4000000x9.size a
  hwx0_2 : ∀ i : grid0.Coords, EltTy.bits .f32 = 32 ∨ (Rect.block (s := S4000000x9) S6400x9.size (cc0_transform_2 i) (hinb0_2 i)).WholeWords (EltTy.packing .f32)

variable [Facts₀]

abbrev win0_0 : Pipeline.Window sig grid0 :=
  Pipeline.Window.ofSpec (Memref.whole main_arg0) S6400x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S6400x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩
abbrev S4000000x1 : Shape := ⟨2, ![4000000, 1]⟩
abbrev S4000000x1x3 : Shape := ⟨3, ![4000000, 1, 3]⟩
abbrev S4000000x3x3 : Shape := ⟨3, ![4000000, 3, 3]⟩

abbrev nBuf : Space → Nat
  | .hbm => 128
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x4, .f32⟩
  | .hbm, ⟨3, _⟩ => ⟨S_, .f32⟩
  | .hbm, ⟨4, _⟩ => ⟨S4000000, .f32⟩
  | .hbm, ⟨5, _⟩ => ⟨S4000000x1, .f32⟩
  | .hbm, ⟨6, _⟩ => ⟨S4000000x1, .f32⟩
  | .hbm, ⟨7, _⟩ => ⟨S4000000x4, .f32⟩
  | .hbm, ⟨8, _⟩ => ⟨S4000000x4, .f32⟩
  | .hbm, ⟨9, _⟩ => ⟨S4000000x1, .f32⟩
  | .hbm, ⟨10, _⟩ => ⟨S4000000, .f32⟩
  | .hbm, ⟨11, _⟩ => ⟨S4000000x1, .f32⟩
  | .hbm, ⟨12, _⟩ => ⟨S4000000, .f32⟩
  | .hbm, ⟨13, _⟩ => ⟨S4000000x1, .f32⟩
  | .hbm, ⟨14, _⟩ => ⟨S4000000, .f32⟩
  | .hbm, ⟨15, _⟩ => ⟨S4000000x1, .f32⟩
  | .hbm, ⟨16, _⟩ => ⟨S4000000, .f32⟩
  | .hbm, ⟨17, _⟩ => ⟨S_, .f32⟩
  | .hbm, ⟨18, _⟩ => ⟨S4000000, .f32⟩
  | .hbm, ⟨19, _⟩ => ⟨S4000000, .f32⟩
  | .hbm, ⟨20, _⟩ => ⟨S4000000, .f32⟩
  | .hbm, ⟨21, _⟩ => ⟨S_, .f32⟩
  | .hbm, ⟨22, _⟩ => ⟨S4000000, .f32⟩
  | .hbm, ⟨23, _⟩ => ⟨S4000000, .f32⟩
  | .hbm, ⟨24, _⟩ => ⟨S_, .f32⟩
  | .hbm, ⟨25, _⟩ => ⟨S4000000, .f32⟩
  | .hbm, ⟨26, _⟩ => ⟨S4000000, .f32⟩
  | .hbm, ⟨27, _⟩ => ⟨S4000000, .f32⟩
  | .hbm, ⟨28, _⟩ => ⟨S4000000, .f32⟩
  | .hbm, ⟨29, _⟩ => ⟨S_, .f32⟩
  | .hbm, ⟨30, _⟩ => ⟨S4000000, .f32⟩
  | .hbm, ⟨31, _⟩ => ⟨S4000000, .f32⟩
  | .hbm, ⟨32, _⟩ => ⟨S4000000, .f32⟩
  | .hbm, ⟨33, _⟩ => ⟨S_, .f32⟩
  | .hbm, ⟨34, _⟩ => ⟨S4000000, .f32⟩
  | .hbm, ⟨35, _⟩ => ⟨S4000000, .f32⟩
  | .hbm, ⟨36, _⟩ => ⟨S4000000, .f32⟩
  | .hbm, ⟨37, _⟩ => ⟨S4000000, .f32⟩
  | .hbm, ⟨38, _⟩ => ⟨S_, .f32⟩
  | .hbm, ⟨39, _⟩ => ⟨S4000000, .f32⟩
  | .hbm, ⟨40, _⟩ => ⟨S4000000, .f32⟩
  | .hbm, ⟨41, _⟩ => ⟨S4000000, .f32⟩
  | .hbm, ⟨42, _⟩ => ⟨S_, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S4000000, .f32⟩
  | .hbm, ⟨47, _⟩ => ⟨S4000000x1, .f32⟩
  | .hbm, ⟨48, _⟩ => ⟨S4000000x1, .f32⟩
  | .hbm, ⟨49, _⟩ => ⟨S4000000x1, .f32⟩
  | .hbm, ⟨50, _⟩ => ⟨S4000000x3, .f32⟩
  | .hbm, ⟨51, _⟩ => ⟨S_, .f32⟩
  | .hbm, ⟨52, _⟩ => ⟨S4000000, .f32⟩
  | .hbm, ⟨53, _⟩ => ⟨S4000000, .f32⟩
  | .hbm, ⟨54, _⟩ => ⟨S4000000, .f32⟩
  | .hbm, ⟨55, _⟩ => ⟨S_, .f32⟩
  | .hbm, ⟨56, _⟩ => ⟨S4000000, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S_, .f32⟩
  | .hbm, ⟨61, _⟩ => ⟨S4000000, .f32⟩
  | .hbm, ⟨62, _⟩ => ⟨S4000000, .f32⟩
  | .hbm, ⟨63, _⟩ => ⟨S4000000, .f32⟩
  | .hbm, ⟨64, _⟩ => ⟨S_, .f32⟩
  | .hbm, ⟨65, _⟩ => ⟨S4000000, .f32⟩
  | .hbm, ⟨66, _⟩ => ⟨S4000000, .f32⟩
  | .hbm, ⟨67, _⟩ => ⟨S_, .f32⟩
  | .hbm, ⟨68, _⟩ => ⟨S4000000, .f32⟩
  | .hbm, ⟨69, _⟩ => ⟨S4000000, .f32⟩
  | .hbm, ⟨70, _⟩ => ⟨S4000000, .f32⟩
  | .hbm, ⟨71, _⟩ => ⟨S4000000, .f32⟩
  | .hbm, ⟨72, _⟩ => ⟨S_, .f32⟩
  | .hbm, ⟨73, _⟩ => ⟨S4000000, .f32⟩
  | .hbm, ⟨74, _⟩ => ⟨S4000000, .f32⟩
  | .hbm, ⟨75, _⟩ => ⟨S4000000, .f32⟩
  | .hbm, ⟨76, _⟩ => ⟨S_, .f32⟩
  | .hbm, ⟨77, _⟩ => ⟨S4000000, .f32⟩
  | .hbm, ⟨78, _⟩ => ⟨S4000000, .f32⟩
  | .hbm, ⟨79, _⟩ => ⟨S4000000, .f32⟩
  | .hbm, ⟨80, _⟩ => ⟨S4000000, .f32⟩
  | .hbm, ⟨81, _⟩ => ⟨S4000000x1, .f32⟩
  | .hbm, ⟨82, _⟩ => ⟨S4000000x1, .f32⟩
  | .hbm, ⟨83, _⟩ => ⟨S4000000x1, .f32⟩
  | .hbm, ⟨84, _⟩ => ⟨S4000000x3, .f32⟩
  | .hbm, ⟨85, _⟩ => ⟨S_, .f32⟩
  | .hbm, ⟨86, _⟩ => ⟨S4000000, .f32⟩
  | .hbm, ⟨87, _⟩ => ⟨S4000000, .f32⟩
  | .hbm, ⟨88, _⟩ => ⟨S4000000, .f32⟩
  | .hbm, ⟨89, _⟩ => ⟨S_, .f32⟩
  | .hbm, ⟨90, _⟩ => ⟨S4000000, .f32⟩
  | .hbm, ⟨91, _⟩ => ⟨S4000000, .f32⟩
  | .hbm, ⟨92, _⟩ => ⟨S4000000, .f32⟩
  | .hbm, ⟨93, _⟩ => ⟨S4000000, .f32⟩
  | .hbm, ⟨94, _⟩ => ⟨S_, .f32⟩
  | .hbm, ⟨95, _⟩ => ⟨S4000000, .f32⟩
  | .hbm, ⟨96, _⟩ => ⟨S4000000, .f32⟩
  | .hbm, ⟨97, _⟩ => ⟨S4000000, .f32⟩
  | .hbm, ⟨98, _⟩ => ⟨S_, .f32⟩
  | .hbm, ⟨99, _⟩ => ⟨S4000000, .f32⟩
  | .hbm, ⟨100, _⟩ => ⟨S4000000, .f32⟩
  | .hbm, ⟨101, _⟩ => ⟨S4000000, .f32⟩
  | .hbm, ⟨102, _⟩ => ⟨S4000000, .f32⟩
  | .hbm, ⟨103, _⟩ => ⟨S_, .f32⟩
  | .hbm, ⟨104, _⟩ => ⟨S4000000, .f32⟩
  | .hbm, ⟨105, _⟩ => ⟨S4000000, .f32⟩
  | .hbm, ⟨106, _⟩ => ⟨S4000000, .f32⟩
  | .hbm, ⟨107, _⟩ => ⟨S_, .f32⟩
  | .hbm, ⟨108, _⟩ => ⟨S4000000, .f32⟩
  | .hbm, ⟨109, _⟩ => ⟨S4000000, .f32⟩
  | .hbm, ⟨110, _⟩ => ⟨S_, .f32⟩
  | .hbm, ⟨111, _⟩ => ⟨S4000000, .f32⟩
  | .hbm, ⟨112, _⟩ => ⟨S4000000, .f32⟩
  | .hbm, ⟨113, _⟩ => ⟨S4000000, .f32⟩
  | .hbm, ⟨114, _⟩ => ⟨S4000000, .f32⟩
  | .hbm, ⟨115, _⟩ => ⟨S4000000x1, .f32⟩
  | .hbm, ⟨116, _⟩ => ⟨S4000000x1, .f32⟩
  | .hbm, ⟨117, _⟩ => ⟨S4000000x1, .f32⟩
  | .hbm, ⟨118, _⟩ => ⟨S4000000x3, .f32⟩
  | .hbm, ⟨119, _⟩ => ⟨S4000000x1x3, .f32⟩
  | .hbm, ⟨120, _⟩ => ⟨S4000000x1x3, .f32⟩
  | .hbm, ⟨121, _⟩ => ⟨S4000000x1x3, .f32⟩
  | .hbm, ⟨122, _⟩ => ⟨S4000000x3x3, .f32⟩
  | .hbm, ⟨123, _⟩ => ⟨S4000000x3, .f32⟩
  | .hbm, ⟨124, _⟩ => ⟨S4000000x1x3, .f32⟩
  | .hbm, ⟨125, _⟩ => ⟨S4000000x3x3, .f32⟩
  | .hbm, ⟨126, _⟩ => ⟨S4000000x3x3, .f32⟩
  | .hbm, ⟨127, _⟩ => ⟨S4000000x3x3, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_15 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_17 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_18 : Ref sig .tc := ⟨.hbm, 107, rfl⟩
abbrev main_v82 : Ref sig .tc := ⟨.hbm, 108, rfl⟩
abbrev main_v83 : Ref sig .tc := ⟨.hbm, 109, rfl⟩
abbrev main_cst_19 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x3_d1 : Shape.Concatenates [S4000000x1, S4000000x1, S4000000x1] S4000000x3 1
  bcast_S4000000x3_S4000000x1x3_0_2 : S4000000x3.BroadcastsInDim S4000000x1x3 (![0, 2] : Fin 2 → Fin S4000000x1x3.rank)
  concatenates_S4000000x1x3_S4000000x1x3_S4000000x1x3_S4000000x3x3_d1 : Shape.Concatenates [S4000000x1x3, S4000000x1x3, S4000000x1x3] S4000000x3x3 1
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.CovSpec.lean ====
/-
  The covariance of a scaled rotation, as one function of the two argument arrays.

  A row of the first argument is a quaternion `r = (w, x, y, z)`, a row of the second three log-scales.
  The quaternion is normalised, `q = r / |r|`, turned into its rotation matrix `R(q)`, the columns of `R`
  are scaled by `s = exp(log-scale)`, and the result is `(R S) (R S)ᵀ`, a symmetric 3 × 3 matrix per row:
  entry `(i, j)` is `∑ₖ (R i k · s k) · (R j k · s k)`.

  The normalisation is spelt in two ways. One multiplies each component by the reciprocal square root of
  `w² + x² + y² + z²`; the other divides each component by the square root of `0 + ∑ₖ rₖ²`. On the
  extended reals the two agree as soon as every component is a real number and the sum of squares is
  positive (`unitDiv_eq_unitMul`); at the zero quaternion they do not (`0 · ⊤ = 0` against `0 / 0`).
-/
import Idealize.ShloMosaic.PureOps.Ideal
import Idealize.ShloMosaic.PureOps.Ideal.Laws
import Idealize.ShloMosaic.Lib.ValueIdx

noncomputable section

namespace Cert.Cov

open Idealize.ShloMosaic Idealize.ShloMosaic.ValueIdx

abbrev SNx4 : Shape := ⟨2, ![4000000, 4]⟩
abbrev SNx3 : Shape := ⟨2, ![4000000, 3]⟩
abbrev SNx9 : Shape := ⟨2, ![4000000, 9]⟩
abbrev SNx3x3 : Shape := ⟨3, ![4000000, 3, 3]⟩

/-- The constants `2` and `1` of the rotation formula, kept as the single-precision words both programs carry. -/
abbrev two : EReal := Ideal.ofBits .f32 0x40000000#32
abbrev one : EReal := Ideal.ofBits .f32 0x3F800000#32

/-- The rotation matrix of the quaternion `(w, x, y, z) = (q 0, q 1, q 2, q 3)`, entry `(i, k)`. -/
def rot (q : Fin 4 → EReal) (i k : Fin 3) : EReal :=
  ![![one - two * q 2 * q 2 - two * q 3 * q 3, two * q 1 * q 2 - two * q 0 * q 3, two * q 1 * q 3 + two * q 0 * q 2],
    ![two * q 1 * q 2 + two * q 0 * q 3, one - two * q 1 * q 1 - two * q 3 * q 3, two * q 2 * q 3 - two * q 0 * q 1],
    ![two * q 1 * q 3 - two * q 0 * q 2, two * q 2 * q 3 + two * q 0 * q 1, one - two * q 1 * q 1 - two * q 2 * q 2]] i k

/-- Entry `(i, j)` of `(R S) (R S)ᵀ`: the columns of the rotation scaled by `s`, row `i` against row `j`. -/
def cov (q : Fin 4 → EReal) (s : Fin 3 → EReal) (i j : Fin 3) : EReal :=
  ∑ k : Fin 3, (rot q i k * s k) * (rot q j k * s k)

/-- The squared length of a quaternion, summed left to right. -/
def sumsq (r : Fin 4 → EReal) : EReal := r 0 * r 0 + r 1 * r 1 + r 2 * r 2 + r 3 * r 3

/-- The same squared length as a sum started from the zero word. -/
def hostSumsq (r : Fin 4 → EReal) : EReal := Ideal.ofBits .f32 0x00000000#32 + ∑ k : Fin 4, r k * r k

/-- Normalisation by the reciprocal square root. -/
def unitMul (r : Fin 4 → EReal) (k : Fin 4) : EReal := r k * Ideal.rsqrt (sumsq r)

/-- Normalisation by division by the length. -/
def unitDiv (r : Fin 4 → EReal) (k : Fin 4) : EReal := Ideal.div (r k) (Ideal.sqrt (hostSumsq r))

theorem hostSumsq_eq (r : Fin 4 → EReal) : hostSumsq r = sumsq r := by
  unfold hostSumsq sumsq
  rw [Ideal.ofBits_zero_f32, zero_add, Fin.sum_univ_four]

/-- On a quaternion of real numbers whose squared length is positive, dividing by the length is multiplying by the
    reciprocal square root: the length is a positive real, and both are the product with its inverse. -/
theorem unitDiv_eq_unitMul (r : Fin 4 → EReal) (hfin : ∀ k, ∃ x : ℝ, r k = (x : EReal)) (hpos : 0 < hostSumsq r) :
    unitDiv r = unitMul r := by
  funext k
  choose x hx using hfin
  have hS : sumsq r = ((x 0 * x 0 + x 1 * x 1 + x 2 * x 2 + x 3 * x 3 : ℝ) : EReal) := by
    unfold sumsq
    rw [hx 0, hx 1, hx 2, hx 3]
    simp only [EReal.coe_mul, EReal.coe_add]
  have hpos' : (0 : ℝ) < x 0 * x 0 + x 1 * x 1 + x 2 * x 2 + x 3 * x 3 := by
    rw [hostSumsq_eq, hS] at hpos
    exact_mod_cast hpos
  have hsq : (0 : ℝ) < Real.sqrt (x 0 * x 0 + x 1 * x 1 + x 2 * x 2 + x 3 * x 3) := Real.sqrt_pos.2 hpos'
  unfold unitDiv unitMul
  rw [hostSumsq_eq, hS, Ideal.sqrt_coe, if_neg (not_lt.2 hpos'.le), Ideal.rsqrt_coe, if_neg (not_lt.2 hpos'.le),
    if_neg hpos'.ne', Ideal.div_coe hsq.ne', one_div]

/-- Row `n` of the quaternion array. -/
def rowOf (rotation : SNx4.Idx → EReal) (n : Fin 4000000) : Fin 4 → EReal := fun k => rotation (ix2 n k)

/-- Row `n` of the scales: the exponential of the log-scales. -/
def scaleOf (scaling : SNx3.Idx → EReal) (n : Fin 4000000) : Fin 3 → EReal := fun k => Ideal.exp (scaling (ix2 n k))

/-- The covariance of row `n`, entry `(i, j)`. -/
def covAt (rotation : SNx4.Idx → EReal) (scaling : SNx3.Idx → EReal) (n : Fin 4000000) (i j : Fin 3) : EReal :=
  cov (unitMul (rowOf rotation n)) (scaleOf scaling n) i j

/-- The result as an array of 3 × 3 matrices. -/
def G (rotation : SNx4.Idx → EReal) (scaling : SNx3.Idx → EReal) : SNx3x3.Idx → EReal :=
  fun j => covAt rotation scaling (j 0) (j 1) (j 2)

/-- The result with each matrix laid out as nine consecutive entries, `(i, j)` at `3 i + j`. -/
def G9 (rotation : SNx4.Idx → EReal) (scaling : SNx3.Idx → EReal) : SNx9.Idx → EReal :=
  fun j => covAt rotation scaling (j 0)
    ⟨(j 1).val / 3, by have h : (j 1).val < 9 := (j 1).isLt; omega⟩
    ⟨(j 1).val % 3, Nat.mod_lt _ (by decide)⟩

/-- The covariance is symmetric: the products under the sum commute. -/
theorem cov_comm (q : Fin 4 → EReal) (s : Fin 3 → EReal) (i j : Fin 3) : cov q s i j = cov q s j i := by
  unfold cov
  exact Finset.sum_congr rfl fun k _ => mul_comm _ _

end Cert.Cov

end
-- ==== Proof.KernelBlock.lean ====
/-
  What the kernel's body leaves in its output block, read at an entry.

  The body loads a block of 6400 quaternions (6400 × 4) and of 6400 log-scale triples (6400 × 3), turns both on
  their side so that the 6400 rows run along the lanes, computes with whole lane rows, stacks the nine covariance
  entries into a 9 × 6400 value and turns it back into the 6400 × 9 block it stores. Entry `(r, c)` of that block
  is the covariance of row `r` of the two input blocks at matrix position `(c / 3, c % 3)`.
-/
import proofs.«155020_j11218454577222_1_alg».proof.Proof.Gen.KernelIdeal.Frame
import proofs.«155020_j11218454577222_1_alg».proof.Proof.CovSpec
import Idealize.ShloMosaic.Lib.Pipeline.Value
import Idealize.ShloMosaic.Lib.ValueIdx
import Idealize.ShloMosaic.PureOps.Ideal.Laws

noncomputable section

namespace Cert.KernelIdeal.CovBlock

open Cert.KernelIdeal Cert.KernelIdeal.Gen Idealize.ShloMosaic Idealize.ShloMosaic.ValueIdx

/-! ## The lane rows of the two loaded blocks

Both blocks are turned on their side, so that row `k` of the turned block at lane `r` is component `k` of row `r`;
a lane row is the slice of one row of a turned block. -/

/-- Row `k` of the turned quaternion block at lane `r` is component `k` of row `r`. -/
theorem pay2_apply (v0 : Vec Ideal S6400x4 .f32) (k : Fin 4) (r : Fin 6400) :
    k0_pay2 (F := Ideal) v0 (ix2 k r) = v0 (ix2 r k) := by
  unfold k0_pay2
  refine transpose_apply _ _ _ (ix2 k r) (ix2 r k) fun b => ?_
  match b with
  | ⟨0, _⟩ => rfl
  | ⟨1, _⟩ => rfl

/-- Row `k` of the turned log-scale block at lane `r` is component `k` of row `r`. -/
theorem pay3_apply (v1 : Vec Ideal S6400x3 .f32) (k : Fin 3) (r : Fin 6400) :
    k0_pay3 (F := Ideal) v1 (ix2 k r) = v1 (ix2 r k) := by
  unfold k0_pay3
  refine transpose_apply _ _ _ (ix2 k r) (ix2 r k) fun b => ?_
  match b with
  | ⟨0, _⟩ => rfl
  | ⟨1, _⟩ => rfl

/-- The lane row `w`. -/
theorem pay4_apply (v0 : Vec Ideal S6400x4 .f32) (r : Fin 6400) :
    k0_pay4 (F := Ideal) v0 (ix2 0 r) = v0 (ix2 r 0) := by
  unfold k0_pay4
  refine (extractStridedSlice_apply _ _ _ (ix2 0 r) (ix2 0 r) fun a => ?_).trans (pay2_apply v0 0 r)
  match a with
  | ⟨0, _⟩ => rfl
  | ⟨1, _⟩ =>
    show r.val = 0 + r.val
    omega

/-- The lane row `x`. -/
theorem pay5_apply (v0 : Vec Ideal S6400x4 .f32) (r : Fin 6400) :
    k0_pay5 (F := Ideal) v0 (ix2 0 r) = v0 (ix2 r 1) := by
  unfold k0_pay5
  refine (extractStridedSlice_apply _ _ _ (ix2 0 r) (ix2 1 r) fun a => ?_).trans (pay2_apply v0 1 r)
  match a with
  | ⟨0, _⟩ => rfl
  | ⟨1, _⟩ =>
    show r.val = 0 + r.val
    omega

/-- The lane row `y`. -/
theorem pay6_apply (v0 : Vec Ideal S6400x4 .f32) (r : Fin 6400) :
    k0_pay6 (F := Ideal) v0 (ix2 0 r) = v0 (ix2 r 2) := by
  unfold k0_pay6
  refine (extractStridedSlice_apply _ _ _ (ix2 0 r) (ix2 2 r) fun a => ?_).trans (pay2_apply v0 2 r)
  match a with
  | ⟨0, _⟩ => rfl
  | ⟨1, _⟩ =>
    show r.val = 0 + r.val
    omega

/-- The lane row `z`. -/
theorem pay7_apply (v0 : Vec Ideal S6400x4 .f32) (r : Fin 6400) :
    k0_pay7 (F := Ideal) v0 (ix2 0 r) = v0 (ix2 r 3) := by
  unfold k0_pay7
  refine (extractStridedSlice_apply _ _ _ (ix2 0 r) (ix2 3 r) fun a => ?_).trans (pay2_apply v0 3 r)
  match a with
  | ⟨0, _⟩ => rfl
  | ⟨1, _⟩ =>
    show r.val = 0 + r.val
    omega

/-- The first lane row of the scales. -/
theorem pay24_apply (v1 : Vec Ideal S6400x3 .f32) (r : Fin 6400) :
    k0_pay24 (F := Ideal) (k0_pay3 v1) (ix2 0 r) = Ideal.exp (v1 (ix2 r 0)) := by
  unfold k0_pay24 k0_pay23
  refine (extractStridedSlice_apply _ _ _ (ix2 0 r) (ix2 0 r) fun a => ?_).trans
    (congrArg Ideal.exp (pay3_apply v1 0 r))
  match a with
  | ⟨0, _⟩ => rfl
  | ⟨1, _⟩ =>
    show r.val = 0 + r.val
    omega

/-- The second lane row of the scales. -/
theorem pay25_apply (v1 : Vec Ideal S6400x3 .f32) (r : Fin 6400) :
    k0_pay25 (F := Ideal) (k0_pay3 v1) (ix2 0 r) = Ideal.exp (v1 (ix2 r 1)) := by
  unfold k0_pay25 k0_pay23
  refine (extractStridedSlice_apply _ _ _ (ix2 0 r) (ix2 1 r) fun a => ?_).trans
    (congrArg Ideal.exp (pay3_apply v1 1 r))
  match a with
  | ⟨0, _⟩ => rfl
  | ⟨1, _⟩ =>
    show r.val = 0 + r.val
    omega

/-- The third lane row of the scales. -/
theorem pay26_apply (v1 : Vec Ideal S6400x3 .f32) (r : Fin 6400) :
    k0_pay26 (F := Ideal) (k0_pay3 v1) (ix2 0 r) = Ideal.exp (v1 (ix2 r 2)) := by
  unfold k0_pay26 k0_pay23
  refine (extractStridedSlice_apply _ _ _ (ix2 0 r) (ix2 2 r) fun a => ?_).trans
    (congrArg Ideal.exp (pay3_apply v1 2 r))
  match a with
  | ⟨0, _⟩ => rfl
  | ⟨1, _⟩ =>
    show r.val = 0 + r.val
    omega

/-! ## The normalised quaternion, the scales and the rotation entries, lane by lane -/

/-- The normalised quaternion of row `r` of a block. -/
abbrev quat (v0 : Vec Ideal S6400x4 .f32) (r : Fin 6400) : Fin 4 → EReal := Cert.Cov.unitMul fun k => v0 (ix2 r k)

/-- The scales of row `r` of a block. -/
abbrev scl (v1 : Vec Ideal S6400x3 .f32) (r : Fin 6400) : Fin 3 → EReal := fun k => Ideal.exp (v1 (ix2 r k))

/-- The reciprocal length of row `r`: the four squares are summed left to right. -/
theorem pay8_apply (v0 : Vec Ideal S6400x4 .f32) (r : Fin 6400) :
    k0_pay8 (F := Ideal) v0 (ix2 0 r) = Ideal.rsqrt (Cert.Cov.sumsq fun k => v0 (ix2 r k)) := by
  unfold k0_pay8
  show Ideal.rsqrt (k0_pay4 v0 (ix2 0 r) * k0_pay4 v0 (ix2 0 r) + k0_pay5 v0 (ix2 0 r) * k0_pay5 v0 (ix2 0 r) + k0_pay6 v0 (ix2 0 r) * k0_pay6 v0 (ix2 0 r) + k0_pay7 v0 (ix2 0 r) * k0_pay7 v0 (ix2 0 r)) = _
  rw [pay4_apply, pay5_apply, pay6_apply, pay7_apply]
  rfl

/-- Component `w` of the normalised quaternion. -/
theorem pay9_apply (v0 : Vec Ideal S6400x4 .f32) (r : Fin 6400) : k0_pay9 (F := Ideal) v0 (ix2 0 r) = quat v0 r 0 := by
  unfold k0_pay9
  show k0_pay4 v0 (ix2 0 r) * k0_pay8 v0 (ix2 0 r) = _
  rw [pay4_apply, pay8_apply]
  rfl

/-- Component `x` of the normalised quaternion. -/
theorem pay10_apply (v0 : Vec Ideal S6400x4 .f32) (r : Fin 6400) : k0_pay10 (F := Ideal) v0 (ix2 0 r) = quat v0 r 1 := by
  unfold k0_pay10
  show k0_pay5 v0 (ix2 0 r) * k0_pay8 v0 (ix2 0 r) = _
  rw [pay5_apply, pay8_apply]
  rfl

/-- Component `y` of the normalised quaternion. -/
theorem pay11_apply (v0 : Vec Ideal S6400x4 .f32) (r : Fin 6400) : k0_pay11 (F := Ideal) v0 (ix2 0 r) = quat v0 r 2 := by
  unfold k0_pay11
  show k0_pay6 v0 (ix2 0 r) * k0_pay8 v0 (ix2 0 r) = _
  rw [pay6_apply, pay8_apply]
  rfl

/-- Component `z` of the normalised quaternion. -/
theorem pay12_apply (v0 : Vec Ideal S6400x4 .f32) (r : Fin 6400) : k0_pay12 (F := Ideal) v0 (ix2 0 r) = quat v0 r 3 := by
  unfold k0_pay12
  show k0_pay7 v0 (ix2 0 r) * k0_pay8 v0 (ix2 0 r) = _
  rw [pay7_apply, pay8_apply]
  rfl

open Cert.Cov (one two rot) in
/-- Rotation entry `(0, 0)`: `1 - 2 y y - 2 z z`. -/
theorem pay13_apply (v0 : Vec Ideal S6400x4 .f32) (r : Fin 6400) : k0_pay13 (F := Ideal) v0 (ix2 0 r) = rot (quat v0 r) 0 0 := by
  unfold k0_pay13
  show one - two * k0_pay11 v0 (ix2 0 r) * k0_pay11 v0 (ix2 0 r) - two * k0_pay12 v0 (ix2 0 r) * k0_pay12 v0 (ix2 0 r) = _
  rw [pay11_apply, pay12_apply]
  rfl

open Cert.Cov (one two rot) in
/-- Rotation entry `(0, 1)`: `2 x y - 2 w z`. -/
theorem pay14_apply (v0 : Vec Ideal S6400x4 .f32) (r : Fin 6400) : k0_pay14 (F := Ideal) v0 (ix2 0 r) = rot (quat v0 r) 0 1 := by
  unfold k0_pay14
  show two * k0_pay10 v0 (ix2 0 r) * k0_pay11 v0 (ix2 0 r) - two * k0_pay9 v0 (ix2 0 r) * k0_pay12 v0 (ix2 0 r) = _
  rw [pay9_apply, pay10_apply, pay11_apply, pay12_apply]
  rfl

open Cert.Cov (one two rot) in
/-- Rotation entry `(0, 2)`: `2 x z + 2 w y`. -/
theorem pay15_apply (v0 : Vec Ideal S6400x4 .f32) (r : Fin 6400) : k0_pay15 (F := Ideal) v0 (ix2 0 r) = rot (quat v0 r) 0 2 := by
  unfold k0_pay15
  show two * k0_pay10 v0 (ix2 0 r) * k0_pay12 v0 (ix2 0 r) + two * k0_pay9 v0 (ix2 0 r) * k0_pay11 v0 (ix2 0 r) = _
  rw [pay9_apply, pay10_apply, pay11_apply, pay12_apply]
  rfl

open Cert.Cov (one two rot) in
/-- The first half of rotation entry `(1, 0)`: `2 x y`. -/
theorem pay16_apply (v0 : Vec Ideal S6400x4 .f32) (r : Fin 6400) :
    k0_pay16 (F := Ideal) v0 (ix2 0 r) = two * quat v0 r 1 * quat v0 r 2 := by
  unfold k0_pay16
  show two * k0_pay10 v0 (ix2 0 r) * k0_pay11 v0 (ix2 0 r) = _
  rw [pay10_apply, pay11_apply]

open Cert.Cov (one two rot) in
/-- Rotation entry `(1, 0)`: `2 x y + 2 w z`. -/
theorem pay17_apply (v0 : Vec Ideal S6400x4 .f32) (r : Fin 6400) :
    k0_pay17 (F := Ideal) (k0_pay9 v0) (k0_pay12 v0) (k0_pay16 v0) (Scalar.ofBits .f32 0x40000000#32) (ix2 0 r) = rot (quat v0 r) 1 0 := by
  unfold k0_pay17
  show k0_pay16 v0 (ix2 0 r) + two * k0_pay9 v0 (ix2 0 r) * k0_pay12 v0 (ix2 0 r) = _
  rw [pay9_apply, pay12_apply, pay16_apply]
  rfl

open Cert.Cov (one two rot) in
/-- Rotation entry `(1, 1)`: `1 - 2 x x - 2 z z`. -/
theorem pay18_apply (v0 : Vec Ideal S6400x4 .f32) (r : Fin 6400) :
    k0_pay18 (F := Ideal) (k0_pay10 v0) (k0_pay12 v0) (ix2 0 r) = rot (quat v0 r) 1 1 := by
  unfold k0_pay18
  show one - two * k0_pay10 v0 (ix2 0 r) * k0_pay10 v0 (ix2 0 r) - two * k0_pay12 v0 (ix2 0 r) * k0_pay12 v0 (ix2 0 r) = _
  rw [pay10_apply, pay12_apply]
  rfl

open Cert.Cov (one two rot) in
/-- Rotation entry `(1, 2)`: `2 y z - 2 w x`. -/
theorem pay19_apply (v0 : Vec Ideal S6400x4 .f32) (r : Fin 6400) :
    k0_pay19 (F := Ideal) (k0_pay9 v0) (k0_pay10 v0) (k0_pay11 v0) (k0_pay12 v0) (ix2 0 r) = rot (quat v0 r) 1 2 := by
  unfold k0_pay19
  show two * k0_pay11 v0 (ix2 0 r) * k0_pay12 v0 (ix2 0 r) - two * k0_pay9 v0 (ix2 0 r) * k0_pay10 v0 (ix2 0 r) = _
  rw [pay9_apply, pay10_apply, pay11_apply, pay12_apply]
  rfl

open Cert.Cov (one two rot) in
/-- Rotation entry `(2, 0)`: `2 x z - 2 w y`. -/
theorem pay20_apply (v0 : Vec Ideal S6400x4 .f32) (r : Fin 6400) :
    k0_pay20 (F := Ideal) (k0_pay9 v0) (k0_pay10 v0) (k0_pay11 v0) (k0_pay12 v0) (ix2 0 r) = rot (quat v0 r) 2 0 := by
  unfold k0_pay20
  show two * k0_pay10 v0 (ix2 0 r) * k0_pay12 v0 (ix2 0 r) - two * k0_pay9 v0 (ix2 0 r) * k0_pay11 v0 (ix2 0 r) = _
  rw [pay9_apply, pay10_apply, pay11_apply, pay12_apply]
  rfl

open Cert.Cov (one two rot) in
/-- Rotation entry `(2, 1)`: `2 y z + 2 w x`. -/
theorem pay21_apply (v0 : Vec Ideal S6400x4 .f32) (r : Fin 6400) :
    k0_pay21 (F := Ideal) (k0_pay9 v0) (k0_pay10 v0) (k0_pay11 v0) (k0_pay12 v0) (ix2 0 r) = rot (quat v0 r) 2 1 := by
  unfold k0_pay21
  show two * k0_pay11 v0 (ix2 0 r) * k0_pay12 v0 (ix2 0 r) + two * k0_pay9 v0 (ix2 0 r) * k0_pay10 v0 (ix2 0 r) = _
  rw [pay9_apply, pay10_apply, pay11_apply, pay12_apply]
  rfl

open Cert.Cov (one two rot) in
/-- Rotation entry `(2, 2)`: `1 - 2 x x - 2 y y`. -/
theorem pay22_apply (v0 : Vec Ideal S6400x4 .f32) (r : Fin 6400) :
    k0_pay22 (F := Ideal) (k0_pay10 v0) (k0_pay11 v0) (ix2 0 r) = rot (quat v0 r) 2 2 := by
  unfold k0_pay22
  show one - two * k0_pay10 v0 (ix2 0 r) * k0_pay10 v0 (ix2 0 r) - two * k0_pay11 v0 (ix2 0 r) * k0_pay11 v0 (ix2 0 r) = _
  rw [pay10_apply, pay11_apply]
  rfl

open Cert.Cov (one two rot) in
/-- Rotation entry `(0, 0)` scaled by the first scale. -/
theorem pay27_apply (v0 : Vec Ideal S6400x4 .f32) (v1 : Vec Ideal S6400x3 .f32) (r : Fin 6400) :
    k0_pay27 (F := Ideal) (k0_pay3 v1) (k0_pay13 v0) (ix2 0 r) = rot (quat v0 r) 0 0 * scl v1 r 0 := by
  unfold k0_pay27
  show k0_pay13 v0 (ix2 0 r) * k0_pay24 (k0_pay3 v1) (ix2 0 r) = _
  rw [pay13_apply, pay24_apply]

/-! ## The nine stacked lane rows, turned back -/

/-- Nine lane rows stacked along the first axis and turned back: entry `(r, c)` is row `c` at lane `r`. -/
theorem stack9_apply (p0 p1 p2 p3 p4 p5 p6 p7 p8 : FVec Ideal S1x6400 .f32) (r : Fin 6400) (c : Fin 9) :
    transpose S6400x9 [1, 0] (concatenate S9x6400 0 [⟨S1x6400, p0⟩, ⟨S1x6400, p1⟩, ⟨S1x6400, p2⟩, ⟨S1x6400, p3⟩,
      ⟨S1x6400, p4⟩, ⟨S1x6400, p5⟩, ⟨S1x6400, p6⟩, ⟨S1x6400, p7⟩, ⟨S1x6400, p8⟩]
      concatenates_S1x6400_S1x6400_S1x6400_S1x6400_S1x6400_S1x6400_S1x6400_S1x6400_S1x6400_S9x6400_d0) transposes_S9x6400_p1_0_S6400x9 (ix2 r c) =
      ![p0, p1, p2, p3, p4, p5, p6, p7, p8] c (ix2 0 r) := by
  refine (transpose_apply _ _ _ (ix2 r c) (ix2 c r) fun b => ?_).trans ?_
  · match b with
    | ⟨0, _⟩ => rfl
    | ⟨1, _⟩ => rfl
  · match c with
    | ⟨0, _⟩ =>
      refine concatenate_apply_piece (t := S9x6400) 0 _ _ _ 0 ?_ S1x6400 p0 ?_ rfl 0 ?_ (ix2 0 r) (fun b hb => ?_) ?_
      · exact (by decide : (0 : Nat) < 9)
      · rfl
      · rfl
      · match b with
        | ⟨0, _⟩ => exact absurd rfl hb
        | ⟨1, _⟩ => rfl
      · rfl
    | ⟨1, _⟩ =>
      refine concatenate_apply_piece (t := S9x6400) 0 _ _ _ 1 ?_ S1x6400 p1 ?_ rfl 1 ?_ (ix2 0 r) (fun b hb => ?_) ?_
      · exact (by decide : (1 : Nat) < 9)
      · rfl
      · rfl
      · match b with
        | ⟨0, _⟩ => exact absurd rfl hb
        | ⟨1, _⟩ => rfl
      · rfl
    | ⟨2, _⟩ =>
      refine concatenate_apply_piece (t := S9x6400) 0 _ _ _ 2 ?_ S1x6400 p2 ?_ rfl 2 ?_ (ix2 0 r) (fun b hb => ?_) ?_
      · exact (by decide : (2 : Nat) < 9)
      · rfl
      · rfl
      · match b with
        | ⟨0, _⟩ => exact absurd rfl hb
        | ⟨1, _⟩ => rfl
      · rfl
    | ⟨3, _⟩ =>
      refine concatenate_apply_piece (t := S9x6400) 0 _ _ _ 3 ?_ S1x6400 p3 ?_ rfl 3 ?_ (ix2 0 r) (fun b hb => ?_) ?_
      · exact (by decide : (3 : Nat) < 9)
      · rfl
      · rfl
      · match b with
        | ⟨0, _⟩ => exact absurd rfl hb
        | ⟨1, _⟩ => rfl
      · rfl
    | ⟨4, _⟩ =>
      refine concatenate_apply_piece (t := S9x6400) 0 _ _ _ 4 ?_ S1x6400 p4 ?_ rfl 4 ?_ (ix2 0 r) (fun b hb => ?_) ?_
      · exact (by decide : (4 : Nat) < 9)
      · rfl
      · rfl
      · match b with
        | ⟨0, _⟩ => exact absurd rfl hb
        | ⟨1, _⟩ => rfl
      · rfl
    | ⟨5, _⟩ =>
      refine concatenate_apply_piece (t := S9x6400) 0 _ _ _ 5 ?_ S1x6400 p5 ?_ rfl 5 ?_ (ix2 0 r) (fun b hb => ?_) ?_
      · exact (by decide : (5 : Nat) < 9)
      · rfl
      · rfl
      · match b with
        | ⟨0, _⟩ => exact absurd rfl hb
        | ⟨1, _⟩ => rfl
      · rfl
    | ⟨6, _⟩ =>
      refine concatenate_apply_piece (t := S9x6400) 0 _ _ _ 6 ?_ S1x6400 p6 ?_ rfl 6 ?_ (ix2 0 r) (fun b hb => ?_) ?_
      · exact (by decide : (6 : Nat) < 9)
      · rfl
      · rfl
      · match b with
        | ⟨0, _⟩ => exact absurd rfl hb
        | ⟨1, _⟩ => rfl
      · rfl
    | ⟨7, _⟩ =>
      refine concatenate_apply_piece (t := S9x6400) 0 _ _ _ 7 ?_ S1x6400 p7 ?_ rfl 7 ?_ (ix2 0 r) (fun b hb => ?_) ?_
      · exact (by decide : (7 : Nat) < 9)
      · rfl
      · rfl
      · match b with
        | ⟨0, _⟩ => exact absurd rfl hb
        | ⟨1, _⟩ => rfl
      · rfl
    | ⟨8, _⟩ =>
      refine concatenate_apply_piece (t := S9x6400) 0 _ _ _ 8 ?_ S1x6400 p8 ?_ rfl 8 ?_ (ix2 0 r) (fun b hb => ?_) ?_
      · exact (by decide : (8 : Nat) < 9)
      · rfl
      · rfl
      · match b with
        | ⟨0, _⟩ => exact absurd rfl hb
        | ⟨1, _⟩ => rfl
      · rfl

/-! ## The stored block -/

/-- Entry `(r, c)` of the block the body stores, over any twelve lane rows: the three scaled rows of the rotation are
    `a = (v93, v35 · v91, v42 · v92)`, `b = (v49 · v90, v58 · v91, v65 · v92)`, `c = (v72 · v90, v79 · v91, v88 · v92)`, and the
    nine entries are their pairwise products summed left to right, the three below the diagonal reusing those above. -/
theorem pay1_apply (v35 v42 v49 v58 v65 v72 v79 v88 v90 v91 v92 v93 : FVec Ideal S1x6400 .f32) (r : Fin 6400) (c : Fin 9) :
    k0_pay1 (F := Ideal) v35 v42 v49 v58 v65 v72 v79 v88 v90 v91 v92 v93 (ix2 r c) =
      ![v93 (ix2 0 r) * v93 (ix2 0 r) + (v35 (ix2 0 r) * v91 (ix2 0 r)) * (v35 (ix2 0 r) * v91 (ix2 0 r)) + (v42 (ix2 0 r) * v92 (ix2 0 r)) * (v42 (ix2 0 r) * v92 (ix2 0 r)),
        v93 (ix2 0 r) * (v49 (ix2 0 r) * v90 (ix2 0 r)) + (v35 (ix2 0 r) * v91 (ix2 0 r)) * (v58 (ix2 0 r) * v91 (ix2 0 r)) + (v42 (ix2 0 r) * v92 (ix2 0 r)) * (v65 (ix2 0 r) * v92 (ix2 0 r)),
        v93 (ix2 0 r) * (v72 (ix2 0 r) * v90 (ix2 0 r)) + (v35 (ix2 0 r) * v91 (ix2 0 r)) * (v79 (ix2 0 r) * v91 (ix2 0 r)) + (v42 (ix2 0 r) * v92 (ix2 0 r)) * (v88 (ix2 0 r) * v92 (ix2 0 r)),
        v93 (ix2 0 r) * (v49 (ix2 0 r) * v90 (ix2 0 r)) + (v35 (ix2 0 r) * v91 (ix2 0 r)) * (v58 (ix2 0 r) * v91 (ix2 0 r)) + (v42 (ix2 0 r) * v92 (ix2 0 r)) * (v65 (ix2 0 r) * v92 (ix2 0 r)),
        (v49 (ix2 0 r) * v90 (ix2 0 r)) * (v49 (ix2 0 r) * v90 (ix2 0 r)) + (v58 (ix2 0 r) * v91 (ix2 0 r)) * (v58 (ix2 0 r) * v91 (ix2 0 r)) + (v65 (ix2 0 r) * v92 (ix2 0 r)) * (v65 (ix2 0 r) * v92 (ix2 0 r)),
        (v49 (ix2 0 r) * v90 (ix2 0 r)) * (v72 (ix2 0 r) * v90 (ix2 0 r)) + (v58 (ix2 0 r) * v91 (ix2 0 r)) * (v79 (ix2 0 r) * v91 (ix2 0 r)) + (v65 (ix2 0 r) * v92 (ix2 0 r)) * (v88 (ix2 0 r) * v92 (ix2 0 r)),
        v93 (ix2 0 r) * (v72 (ix2 0 r) * v90 (ix2 0 r)) + (v35 (ix2 0 r) * v91 (ix2 0 r)) * (v79 (ix2 0 r) * v91 (ix2 0 r)) + (v42 (ix2 0 r) * v92 (ix2 0 r)) * (v88 (ix2 0 r) * v92 (ix2 0 r)),
        (v49 (ix2 0 r) * v90 (ix2 0 r)) * (v72 (ix2 0 r) * v90 (ix2 0 r)) + (v58 (ix2 0 r) * v91 (ix2 0 r)) * (v79 (ix2 0 r) * v91 (ix2 0 r)) + (v65 (ix2 0 r) * v92 (ix2 0 r)) * (v88 (ix2 0 r) * v92 (ix2 0 r)),
        (v72 (ix2 0 r) * v90 (ix2 0 r)) * (v72 (ix2 0 r) * v90 (ix2 0 r)) + (v79 (ix2 0 r) * v91 (ix2 0 r)) * (v79 (ix2 0 r) * v91 (ix2 0 r)) + (v88 (ix2 0 r) * v92 (ix2 0 r)) * (v88 (ix2 0 r) * v92 (ix2 0 r))] c := by
  unfold k0_pay1
  refine (stack9_apply _ _ _ _ _ _ _ _ _ r c).trans ?_
  match c with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

open Cert.Cov (rot) in
/-- Entry `(i, j)` of the covariance written out: three products, summed left to right. -/
theorem cov_three (q : Fin 4 → EReal) (s : Fin 3 → EReal) (i j : Fin 3) :
    Cert.Cov.cov q s i j =
      rot q i 0 * s 0 * (rot q j 0 * s 0) + rot q i 1 * s 1 * (rot q j 1 * s 1) + rot q i 2 * s 2 * (rot q j 2 * s 2) := by
  unfold Cert.Cov.cov
  exact Fin.sum_univ_three _

/-- The rectangle of each access starts at the origin. -/
theorem origin2 : (![0, 0] : Fin 2 → Nat) = fun _ => 0 :=
  funext fun a => match a with
    | ⟨0, _⟩ => rfl
    | ⟨1, _⟩ => rfl

/-- Entry `(r, c)` of the stored block is the covariance of row `r` of the loaded blocks at position `(c / 3, c % 3)`. -/
theorem out_apply (x0 : Vec Ideal S6400x4 .f32) (x1 : Vec Ideal S6400x3 .f32) (r : Fin 6400) (c : Fin 9) :
    out0_2 (F := Ideal) x0 x1 (ix2 r c) =
      Cert.Cov.cov (Cert.Cov.unitMul fun k => x0 (ix2 r k)) (fun k => Ideal.exp (x1 (ix2 r k)))
        ⟨c.val / 3, by have := c.isLt; omega⟩ ⟨c.val % 3, Nat.mod_lt _ (by decide)⟩ := by
  unfold out0_2
  rw [View.canon_unit_zero origin2]
  simp only [View.ld_unit_zero (S := S6400x4) origin2, View.ld_unit_zero (S := S6400x3) origin2]
  rw [pay1_apply, pay14_apply, pay15_apply, pay17_apply, pay18_apply, pay19_apply, pay20_apply, pay21_apply, pay22_apply,
    pay24_apply, pay25_apply, pay26_apply, pay27_apply]
  match c with
  | ⟨0, _⟩ =>
    dsimp only
    exact (cov_three (quat x0 r) (scl x1 r) 0 0).symm
  | ⟨1, _⟩ =>
    dsimp only
    exact (cov_three (quat x0 r) (scl x1 r) 0 1).symm
  | ⟨2, _⟩ =>
    dsimp only
    exact (cov_three (quat x0 r) (scl x1 r) 0 2).symm
  | ⟨3, _⟩ =>
    dsimp only
    exact ((Cert.Cov.cov_comm (quat x0 r) (scl x1 r) 1 0).trans (cov_three (quat x0 r) (scl x1 r) 0 1)).symm
  | ⟨4, _⟩ =>
    dsimp only
    exact (cov_three (quat x0 r) (scl x1 r) 1 1).symm
  | ⟨5, _⟩ =>
    dsimp only
    exact (cov_three (quat x0 r) (scl x1 r) 1 2).symm
  | ⟨6, _⟩ =>
    dsimp only
    exact ((Cert.Cov.cov_comm (quat x0 r) (scl x1 r) 2 0).trans (cov_three (quat x0 r) (scl x1 r) 0 2)).symm
  | ⟨7, _⟩ =>
    dsimp only
    exact ((Cert.Cov.cov_comm (quat x0 r) (scl x1 r) 2 1).trans (cov_three (quat x0 r) (scl x1 r) 1 2)).symm
  | ⟨8, _⟩ =>
    dsimp only
    exact (cov_three (quat x0 r) (scl x1 r) 2 2).symm

end Cert.KernelIdeal.CovBlock

end
-- ==== Proof.KernelArray.lean ====
/-
  From the kernel's blocks to its result array, and through the closing reshape.

  Grid point `t` works on rows `6400 t … 6400 t + 6399` of both arguments and writes the same rows of the
  4000000 × 9 output; the 625 blocks tile it, so the array after the region is the covariance of every row laid
  out as nine entries. The program then reshapes 4000000 × 9 to 4000000 × 3 × 3: entry `(n, i, j)` is entry
  `(n, 3 i + j)`.
-/
import proofs.«155020_j11218454577222_1_alg».proof.Proof.KernelBlock

noncomputable section

namespace Cert.KernelIdeal.CovValue

open Cert.KernelIdeal Cert.KernelIdeal.Gen Idealize.ShloMosaic Idealize.ShloMosaic.TcCoe Idealize.ShloMosaic.ValueIdx Idealize.SL.Sem

section Blocks

variable (m : (ℓ : Loc nD τ sig) → Buf (Elt Ideal) ℓ)

/-! ## Which block each grid point works on -/

/-- At grid point `t` every window is on block `(t, 0)`: block row `t`, the one block column. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry `y` of the quaternion block at point `t` is the entry of the quaternion array in row
    `6400 t + y₀` and the same column. -/
theorem quat_block (c : Dev nD) (t : Fin cfg0.N) (y : S6400x4.Idx) (i : S4000000x4.Idx)
    (h0 : (i 0).val = 6400 * t.val + (y 0).val) (h1 : (i 1).val = (y 1).val) :
    (iblk m c 0 t : Vec Ideal S6400x4 .f32) y = (V m c main_arg0 : S4000000x4.Idx → EReal) i := by
  obtain ⟨e0, e1, -⟩ := index_facts t
  show V m c main_arg0 (((cfg0.win 0).blk t).view.emb y) = V m c main_arg0 i
  refine congrArg _ ?_
  funext a; apply Fin.ext
  match a with
  | ⟨0, _⟩ => show win0_0.index t (0 : Fin 2) * 6400 + 1 * (y 0).val = (i 0).val; omega
  | ⟨1, _⟩ => show win0_0.index t (1 : Fin 2) * 4 + 1 * (y 1).val = (i 1).val; omega

/-- Entry `y` of the log-scale block at point `t` is the entry of the log-scale array in row
    `6400 t + y₀` and the same column. -/
theorem scale_block (c : Dev nD) (t : Fin cfg0.N) (y : S6400x3.Idx) (i : S4000000x3.Idx)
    (h0 : (i 0).val = 6400 * t.val + (y 0).val) (h1 : (i 1).val = (y 1).val) :
    (iblk m c 1 t : Vec Ideal S6400x3 .f32) y = (V m c main_arg1 : S4000000x3.Idx → EReal) i := by
  obtain ⟨-, -, e0, e1, -⟩ := index_facts t
  show V m c main_arg1 (((cfg0.win 1).blk t).view.emb y) = V m c main_arg1 i
  refine congrArg _ ?_
  funext a; apply Fin.ext
  match a with
  | ⟨0, _⟩ => show win0_1.index t (0 : Fin 2) * 6400 + 1 * (y 0).val = (i 0).val; omega
  | ⟨1, _⟩ => show win0_1.index t (1 : Fin 2) * 3 + 1 * (y 1).val = (i 1).val; omega

/-! ## What a grid point writes back -/

/-- The stored block at any of its entries `y`: the covariance of row `y₀` of the two loaded blocks at matrix
    position `(y₁ / 3, y₁ % 3)`. -/
theorem block_entry (x0 : Vec Ideal S6400x4 .f32) (x1 : Vec Ideal S6400x3 .f32) (y : S6400x9.Idx) :
    out0_2 (F := Ideal) x0 x1 y =
      Cert.Cov.cov (Cert.Cov.unitMul fun k => x0 (ix2 (y 0) k)) (fun k => Ideal.exp (x1 (ix2 (y 0) k)))
        ⟨(y 1).val / 3, by have h : (y 1).val < 9 := (y 1).isLt; omega⟩ ⟨(y 1).val % 3, Nat.mod_lt _ (by decide)⟩ := by
  obtain ⟨r, q, rfl⟩ : ∃ (r : Fin 6400) (q : Fin 9), y = ix2 r q := ⟨y 0, y 1, eq_ix2 y⟩
  exact CovBlock.out_apply x0 x1 r q

/-- The covariance of a normalised quaternion depends only on the quaternion, the scales and the position. -/
theorem cov_congr {q q' : Fin 4 → EReal} {s s' : Fin 3 → EReal} {a a' b b' : Fin 3}
    (hq : q = q') (hs : s = s') (ha : a = a') (hb : b = b') :
    Cert.Cov.cov (Cert.Cov.unitMul q) s a b = Cert.Cov.cov (Cert.Cov.unitMul q') s' a' b' := by
  subst hq hs ha hb; rfl

/-- Entry `y` of the block stored at point `t` is entry `(6400 t + y₀, y₁)` of the nine-column covariance
    array of the two argument arrays: row `y₀` of either input block is row `6400 t + y₀` of its array. -/
theorem written_entry (c : Dev nD) (t : Fin cfg0.N) (y : S6400x9.Idx) (i : S4000000x9.Idx)
    (h0 : (i 0).val = 6400 * t.val + (y 0).val) (h1 : (i 1).val = (y 1).val) :
    out0_2 (F := Ideal) (iblk m c 0 t) (iblk m c 1 t) y = Cert.Cov.G9 (V m c main_arg0) (V m c main_arg1) i := by
  refine (block_entry (iblk m c 0 t) (iblk m c 1 t) y).trans ?_
  unfold Cert.Cov.G9 Cert.Cov.covAt
  refine cov_congr (funext fun k => ?_) (funext fun k => ?_) (Fin.ext ?_) (Fin.ext ?_)
  · exact quat_block m c t (ix2 (y 0) k) (ix2 (i 0) k) h0 rfl
  · exact congrArg Ideal.exp (scale_block m c t (ix2 (y 0) k) (ix2 (i 0) k) h0 rfl)
  · show (y 1).val / 3 = (i 1).val / 3
    rw [h1]
  · show (y 1).val % 3 = (i 1).val % 3
    rw [h1]

/-- What point `t` writes back is block `t` of the nine-column covariance array. -/
theorem flushed_eq (c : Dev nD) (t : Fin cfg0.N) :
    (dats m 0 c).flushed 2 t
      = ((cfg0.win 2).blk t).view.read (Elt Ideal) (Cert.Cov.G9 (V m c main_arg0) (V m c main_arg1)) := by
  show (cfg0.win 2).cut (grid0.coords t) ((dats m 0 c).after 2 t) = _
  rw [after0_2]
  obtain ⟨-, -, -, -, e0, e1⟩ := index_facts t
  funext y
  show out0_2 (iblk m c 0 t) (iblk m c 1 t) ((cfg0.win 2).xinj (grid0.coords t) y)
    = Cert.Cov.G9 (V m c main_arg0) (V m c main_arg1) (((cfg0.win 2).blk t).view.emb y)
  refine written_entry m c t _ _ ?_ ?_
  · show win0_2.index t (0 : Fin 2) * 6400 + 1 * (y 0).val = 6400 * t.val + (y 0).val
    omega
  · show win0_2.index t (1 : Fin 2) * 9 + 1 * (y 1).val = (y 1).val
    omega

/-! ## The blocks tile the output -/

/-- An entry of the output array is in point `t`'s block iff each coordinate is in the block's range on its axis. -/
theorem mem_block (t : Fin cfg0.N) (i : S4000000x9.Idx) :
    i ∈ ((cfg0.win 2).blk t).view.set
      ↔ ∀ a : Fin 2, win0_2.index t a * S6400x9.size a ≤ (i a).val
          ∧ (i a).val < win0_2.index t a * S6400x9.size a + S6400x9.size a := by
  show i ∈ ((View.whole main_v0).slice (win0_2.rect t)).set ↔ _
  rw [View.set_slice_whole, Rect.mem_set_unit]
  exact Iff.rfl

/-- Row `n` of the output lies in the block of point `n / 6400`, which is written back. -/
theorem covered (i : S4000000x9.Idx) :
    ∃ t : Fin cfg0.N, (cfg0.win 2).flush t = true ∧ i ∈ ((cfg0.win 2).blk t).view.set := by
  have hi0 : (i 0).val < 4000000 := (i 0).isLt
  have hi1 : (i 1).val < 9 := (i 1).isLt
  have hN : cfg0.N = 625 := N_0
  obtain ⟨t, ht⟩ : ∃ t : Fin cfg0.N, t.val = (i 0).val / 6400 := ⟨⟨(i 0).val / 6400, by rw [hN]; omega⟩, rfl⟩
  obtain ⟨-, -, -, -, e0, e1⟩ := index_facts t
  refine ⟨t, flush0_2 t, ?_⟩
  rw [mem_block]
  intro a
  match a with
  | ⟨0, _⟩ =>
    show win0_2.index t (0 : Fin 2) * 6400 ≤ (i 0).val ∧ (i 0).val < win0_2.index t (0 : Fin 2) * 6400 + 6400
    omega
  | ⟨1, _⟩ =>
    show win0_2.index t (1 : Fin 2) * 9 ≤ (i 1).val ∧ (i 1).val < win0_2.index t (1 : Fin 2) * 9 + 9
    omega

/-- After the last grid point the output array is the nine-column covariance array of the arguments. -/
theorem array_eq (c : Dev nD) :
    (dats m 0 c).arrAt 2 cfg0.N = Cert.Cov.G9 (V m c main_arg0) (V m c main_arg1) :=
  (dats m 0 c).arrAt_eq_of_cover 2 (Cert.Cov.G9 (V m c main_arg0) (V m c main_arg1)) (fun t _ => flushed_eq m c t) covered

/-! ## The closing reshape -/

/-- The covariance of a row depends only on the row and the matrix position. -/
theorem covAt_congr (rotation : Cert.Cov.SNx4.Idx → EReal) (scaling : Cert.Cov.SNx3.Idx → EReal) (n : Fin 4000000)
    {a a' b b' : Fin 3} (ha : a = a') (hb : b = b') :
    Cert.Cov.covAt rotation scaling n a b = Cert.Cov.covAt rotation scaling n a' b' := by
  subst ha hb; rfl

/-- The reshape of the nine-column array to 3 × 3 matrices is the covariance array: entry `(n, a, b)` has the
    row-major position `(3 n + a) 3 + b = 9 n + (3 a + b)` of entry `(n, 3 a + b)`, and
    `(3 a + b) / 3 = a`, `(3 a + b) % 3 = b`. -/
theorem reshaped (c : Dev nD) :
    Pipeline.afterTail₀ cfgs (dats m) 0 (V0 m) [hostOps1] c main_v1
      = Cert.Cov.G (V m c main_arg0) (V m c main_arg1) := by
  have hA : Pipeline.withArrays spec0 c (V0 m c) (fun w => (dats m 0 c).arrAt w cfg0.N)
        (Proc.devRef .tc (Pipeline.arrRef spec0 2))
      = Cert.Cov.G9 (V m c main_arg0) (V m c main_arg1) :=
    (Pipeline.withArrays_arr spec0 launch0.win.arr_inj c _ _ 2).trans (array_eq m c)
  unfold Pipeline.afterTail₀
  show StableHlo.after hostOps1 _ (Proc.devRef .tc main_v1) = _
  after_results
  funext j
  show shapeCast S4000000x3x3 (Pipeline.withArrays spec0 c (V0 m c) (fun w => (dats m 0 c).arrAt w cfg0.N)
        (Proc.devRef .tc (Pipeline.arrRef spec0 2))) shapeCasts_S4000000x9_S4000000x3x3 j = _
  rw [hA]
  obtain ⟨n, a, b, rfl⟩ : ∃ (n : Fin 4000000) (a b : Fin 3), j = ix3 n a b := ⟨j 0, j 1, j 2, eq_ix3 j⟩
  have ha : a.val < 3 := a.isLt
  have hb : b.val < 3 := b.isLt
  refine (shapeCast_apply _ _ (ix3 n a b) (ix2 n (⟨3 * a.val + b.val, by omega⟩ : Fin 9)) ?_).trans ?_
  · rw [Shape.rowMajor_val_two, Shape.rowMajor_val_three]
    show n.val * 9 + (3 * a.val + b.val) = (n.val * 3 + a.val) * 3 + b.val
    omega
  · unfold Cert.Cov.G Cert.Cov.G9
    refine covAt_congr _ _ _ (Fin.ext ?_) (Fin.ext ?_)
    · show (3 * a.val + b.val) / 3 = a.val
      omega
    · show (3 * a.val + b.val) % 3 = b.val
      omega

end Blocks

/-! ## The run -/

/-- Every weakly fair execution of the idealized kernel program ends with its result at the covariance of the
    argument arrays, and the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1)
          = Cert.Cov.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  exact (θ_run defs _ _).mono (fun r h c =>
    ⟨((h c).2 main_v1 (Pipeline.mem_restRefs_of main_v1 rfl (by decide))).trans (reshaped m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.CovValue

end
-- ==== Proof.PreFacts.lean ====
/-
  What the precondition says of the quaternion array.

  The precondition is the conjunction of three tests: every entry of the quaternion array is finite, every
  entry of the log-scale array is finite, and every quaternion has a positive squared length (the sum, started
  from zero, of the squares of its four components). Read on the extended reals: every component is a real
  number, and every row's sum of squares is positive.
-/
import proofs.«155020_j11218454577222_1_alg».proof.Pre_finite_inputs
import proofs.«155020_j11218454577222_1_alg».proof.Proof.Gen.Pre_finite_inputs
import proofs.«155020_j11218454577222_1_alg».proof.Proof.CovSpec
import Idealize.ShloMosaic.Lib.ReduceAll
import Idealize.ShloMosaic.Lib.ValueIdx
import Idealize.ShloMosaic.Lib.StableHlo.Predicate
import Idealize.ShloMosaic.PureOps.Ideal.Laws

noncomputable section

namespace Cert.PreFacts

open Idealize.ShloMosaic Idealize.ShloMosaic.ValueIdx

variable [Cert.Pre_finite_inputs.Facts]

/-- The scalar shape has exactly one index. -/
instance scalarIdx_subsingleton : Subsingleton Cert.Pre_finite_inputs.S_.Idx := ⟨fun _ _ => funext fun d => d.elim0⟩

/-- The single-precision word `0x7F800000` is plus infinity. -/
theorem ofBits_inf_f32 : Ideal.ofBits .f32 0x7F800000#32 = ⊤ := by simp [Ideal.ofBits, Ideal.ieee]

/-- An extended real whose absolute value lies below plus infinity is a real number. -/
theorem real_of_abs_lt_top (x : EReal) (hx : max x (-x) < ⊤) : ∃ r : ℝ, x = (r : EReal) := by
  induction x using EReal.rec with
  | bot => simp at hx
  | coe r => exact ⟨r, rfl⟩
  | top => simp at hx

/-- The ordered "less than" test answers one exactly when its left operand is the smaller. -/
theorem cmp_olt_eq_one {x y : EReal} : Ideal.cmp .olt x y = 1#1 ↔ x < y := by
  simp [Ideal.cmp, StableHlo.Predicate.ofBool_eq_one_iff]

/-- The ordered "greater than" test answers one exactly when its right operand is the smaller. -/
theorem cmp_ogt_eq_one {x y : EReal} : Ideal.cmp .ogt x y = 1#1 ↔ y < x := by
  simp [Ideal.cmp, StableHlo.Predicate.ofBool_eq_one_iff]

open Cert.Pre_finite_inputs in
/-- A scalar word spread over any shape reads that word's value at every index. -/
theorem bcast_word {t : Shape} (hb : S_.BroadcastsInDim t (![] : Fin 0 → Fin t.rank)) (w : BitVec 32) (j : t.Idx) :
    broadcastInDim t ![] hb (constant (F := Ideal) S_ .f32 w) j = Ideal.ofBits .f32 w :=
  StableHlo.Predicate.bcast_scalar hb Facts.h_S_ _ j

open Cert.Pre_finite_inputs in
/-- The row sum of squares, started from the zero word: at row `n` it is that word plus the sum over the four components of the square. -/
theorem rowSum_read (x0 : FVec Ideal S4000000x4 .f32) (n : Fin 4000000) :
    Host.reduceAdd (F := Ideal) (mulf x0 x0) (constant S_ .f32 0x00000000#32) Facts.reducesTo_S4000000x4_S4000000_d1 Facts.h_S_ (ix1 n)
      = Ideal.ofBits .f32 0x00000000#32 + ∑ k : Fin 4, x0 (ix2 n k) * x0 (ix2 n k) := by
  simp only [Host.reduceAdd, Ideal.hostReduceAdd_def]
  rw [Ideal.hostReduceAdd_single Facts.reducesTo_S4000000x4_S4000000_d1 (by decide)]
  refine congrArg (_ + ·) (Finset.sum_congr rfl fun k _ => ?_)
  show x0 _ * x0 _ = x0 _ * x0 _
  congr 1 <;> exact congrArg x0 (funext fun a => Fin.ext (by match a with | ⟨0, _⟩ => rfl | ⟨1, _⟩ => rfl))

/-- A comparison of two arrays, read at one index, compares the two entries there. -/
theorem cmpf_apply {s : Shape} (p : CmpFPredicate) (a b : FVec Ideal s .f32) (j : s.Idx) :
    cmpf p a b j = Ideal.cmp p (a j) (b j) := rfl

/-- The absolute value of an array, read at one index, is the larger of the entry and its negative. -/
theorem absf_apply {s : Shape} (a : FVec Ideal s .f32) (j : s.Idx) : Host.absf a j = max (a j) (-(a j)) := rfl

/-- Under the precondition every quaternion component is a real number and every quaternion's squared length is positive. -/
theorem of_pre (x0 : FVec Ideal Cert.Pre_finite_inputs.S4000000x4 .f32) (x1 : FVec Ideal Cert.Pre_finite_inputs.S4000000x3 .f32)
    (h : Cert.Pre_finite_inputs.fn (F := Ideal) x0 x1 = fun _ => 1#1) :
    (∀ i, ∃ r : ℝ, x0 i = (r : EReal)) ∧ (∀ n : Fin 4000000, 0 < Cert.Cov.hostSumsq (Cert.Cov.rowOf x0 n)) := by
  have h0 := congrFun h ValueIdx.ix0
  dsimp only [Cert.Pre_finite_inputs.fn] at h0
  obtain ⟨h12, h3⟩ := IntOp.andi_eq_one.1 h0
  obtain ⟨h1, -⟩ := IntOp.andi_eq_one.1 h12
  refine ⟨fun i => ?_, fun n => ?_⟩
  · -- the first test at the entry `i`: |x0 i| lies below the infinity word
    have e := Host.reduce_andi_all _ _ _ _ _ h1 i
    rw [cmpf_apply, absf_apply, bcast_word, ofBits_inf_f32] at e
    exact real_of_abs_lt_top _ (cmp_olt_eq_one.1 e)
  · -- the third test at the row `n`: the zero word lies below the row's sum of squares
    have e := Host.reduce_andi_all _ _ _ _ _ h3 (ix1 n)
    rw [cmpf_apply, bcast_word, rowSum_read] at e
    have e2 := cmp_ogt_eq_one.1 e
    rw [Ideal.ofBits_zero_f32] at e2
    show (0 : EReal) < Ideal.ofBits .f32 0x00000000#32 + ∑ k : Fin 4, x0 (ix2 n k) * x0 (ix2 n k)
    rw [Ideal.ofBits_zero_f32]
    exact e2

end Cert.PreFacts

end
-- ==== Proof.RefValue.lean ====
/-
  The reference program's result, read at an index.

  The reference normalises each quaternion by dividing it by its length (the square root of the sum, started
  from zero, of its squared components), cuts the four normalised components out as columns, forms the nine
  entries of the rotation matrix column by column, stacks them into rows and the rows into a 3 × 3 matrix per
  quaternion, scales the columns by the exponentials of the log-scales, and contracts the scaled matrix with
  itself over its column index. Read at `(n, i, j)` that is `∑ₖ (R i k · s k) · (R j k · s k)` at the divided
  quaternion of row `n`; where every component is real and the squared length positive the divided quaternion
  is the one normalised by the reciprocal square root, and the result is the specification's.
-/
import proofs.«155020_j11218454577222_1_alg».proof.Proof.Gen.ReferenceIdeal.Read
import proofs.«155020_j11218454577222_1_alg».proof.Proof.CovSpec
import Idealize.ShloMosaic.Lib.Pipeline.Value
import Idealize.ShloMosaic.Lib.ValueIdx
import Idealize.ShloMosaic.PureOps.Ideal.Laws

noncomputable section

namespace Cert.ReferenceIdeal.CovValue

open Cert.ReferenceIdeal Cert.ReferenceIdeal.Gen Cert.ReferenceIdeal.Read Idealize.ShloMosaic Idealize.ShloMosaic.ValueIdx

variable (x0 : (⟨S4000000x4, .f32⟩ : BufTy).Contents (Elt Ideal)) (x1 : (⟨S4000000x3, .f32⟩ : BufTy).Contents (Elt Ideal))
  (n : Fin 4000000)

/-- Row `n`'s quaternion divided by its length. -/
abbrev quat : Fin 4 → EReal := Cert.Cov.unitDiv (Cert.Cov.rowOf x0 n)

/-! ## The normalised quaternion and its four components -/

/-- The divided array at `(n, k)`: the component over the square root of the row's sum of squares. -/
theorem unit_apply (k : Fin 4) : val_main_v2 (F := Ideal) x0 (ix2 n k) = quat x0 n k := by
  rw [val_main_v2_apply, val_main_v1_apply, val_main_v0_apply, val_main_call0_v2_apply, val_main_call0_v1_apply]
  have e : ∀ k' : Fin 4, idx_main_call0_v1 (idx_main_call0_v2 (idx_main_v1 (ix2 n k))) k' = ix2 n k' := fun k' =>
    funext fun a => Fin.ext (by match a with | ⟨0, _⟩ => rfl | ⟨1, _⟩ => rfl)
  simp only [e, val_main_call0_v0_apply, val_main_call0_cst_apply]
  rfl

/-- The first column, as a vector over the rows. -/
theorem comp0 : val_main_v4 (F := Ideal) x0 (ix1 n) = quat x0 n 0 := by
  rw [val_main_v4_apply, val_main_v3_apply]
  have e : idx_main_v3 (idx_main_v4 (ix1 n)) = ix2 n 0 :=
    funext fun a => Fin.ext (by match a with | ⟨0, _⟩ => exact Nat.div_one _ | ⟨1, _⟩ => rfl)
  rw [e]; exact unit_apply x0 n 0

theorem comp1 : val_main_v6 (F := Ideal) x0 (ix1 n) = quat x0 n 1 := by
  rw [val_main_v6_apply, val_main_v5_apply]
  have e : idx_main_v5 (idx_main_v6 (ix1 n)) = ix2 n 1 :=
    funext fun a => Fin.ext (by match a with | ⟨0, _⟩ => exact Nat.div_one _ | ⟨1, _⟩ => rfl)
  rw [e]; exact unit_apply x0 n 1

theorem comp2 : val_main_v8 (F := Ideal) x0 (ix1 n) = quat x0 n 2 := by
  rw [val_main_v8_apply, val_main_v7_apply]
  have e : idx_main_v7 (idx_main_v8 (ix1 n)) = ix2 n 2 :=
    funext fun a => Fin.ext (by match a with | ⟨0, _⟩ => exact Nat.div_one _ | ⟨1, _⟩ => rfl)
  rw [e]; exact unit_apply x0 n 2

theorem comp3 : val_main_v10 (F := Ideal) x0 (ix1 n) = quat x0 n 3 := by
  rw [val_main_v10_apply, val_main_v9_apply]
  have e : idx_main_v9 (idx_main_v10 (ix1 n)) = ix2 n 3 :=
    funext fun a => Fin.ext (by match a with | ⟨0, _⟩ => exact Nat.div_one _ | ⟨1, _⟩ => rfl)
  rw [e]; exact unit_apply x0 n 3

/-! ## The nine entries of the rotation matrix

Each entry is a vector over the rows, computed pointwise from the four component vectors and the splat constants
`2` and `1`: reading it at row `n` rewrites the pointwise operations, in the order the entry is built, down to the components. -/

theorem v19_at : val_main_v19 (F := Ideal) x0 (ix1 n) = Cert.Cov.rot (quat x0 n) 0 0 := by
  rw [
    val_main_v19_apply, val_main_v15_apply, val_main_v14_apply, val_main_cst_0_apply, val_main_v13_apply,
    val_main_v12_apply, val_main_v11_apply, val_main_cst_apply, val_main_v18_apply, val_main_v17_apply,
    val_main_v16_apply, val_main_cst_1_apply, comp2, comp3]
  rfl

theorem v26_at : val_main_v26 (F := Ideal) x0 (ix1 n) = Cert.Cov.rot (quat x0 n) 0 1 := by
  rw [
    val_main_v26_apply, val_main_v22_apply, val_main_v21_apply, val_main_v20_apply, val_main_cst_2_apply,
    val_main_v25_apply, val_main_v24_apply, val_main_v23_apply, val_main_cst_3_apply, comp0, comp1, comp2,
    comp3]
  rfl

theorem v33_at : val_main_v33 (F := Ideal) x0 (ix1 n) = Cert.Cov.rot (quat x0 n) 0 2 := by
  rw [
    val_main_v33_apply, val_main_v29_apply, val_main_v28_apply, val_main_v27_apply, val_main_cst_4_apply,
    val_main_v32_apply, val_main_v31_apply, val_main_v30_apply, val_main_cst_5_apply, comp0, comp1, comp2,
    comp3]
  rfl

theorem v44_at : val_main_v44 (F := Ideal) x0 (ix1 n) = Cert.Cov.rot (quat x0 n) 1 0 := by
  rw [
    val_main_v44_apply, val_main_v40_apply, val_main_v39_apply, val_main_v38_apply, val_main_cst_6_apply,
    val_main_v43_apply, val_main_v42_apply, val_main_v41_apply, val_main_cst_7_apply, comp0, comp1, comp2,
    comp3]
  rfl

theorem v53_at : val_main_v53 (F := Ideal) x0 (ix1 n) = Cert.Cov.rot (quat x0 n) 1 1 := by
  rw [
    val_main_v53_apply, val_main_v49_apply, val_main_v48_apply, val_main_cst_9_apply, val_main_v47_apply,
    val_main_v46_apply, val_main_v45_apply, val_main_cst_8_apply, val_main_v52_apply, val_main_v51_apply,
    val_main_v50_apply, val_main_cst_10_apply, comp1, comp3]
  rfl

theorem v60_at : val_main_v60 (F := Ideal) x0 (ix1 n) = Cert.Cov.rot (quat x0 n) 1 2 := by
  rw [
    val_main_v60_apply, val_main_v56_apply, val_main_v55_apply, val_main_v54_apply, val_main_cst_11_apply,
    val_main_v59_apply, val_main_v58_apply, val_main_v57_apply, val_main_cst_12_apply, comp0, comp1, comp2,
    comp3]
  rfl

theorem v71_at : val_main_v71 (F := Ideal) x0 (ix1 n) = Cert.Cov.rot (quat x0 n) 2 0 := by
  rw [
    val_main_v71_apply, val_main_v67_apply, val_main_v66_apply, val_main_v65_apply, val_main_cst_13_apply,
    val_main_v70_apply, val_main_v69_apply, val_main_v68_apply, val_main_cst_14_apply, comp0, comp1, comp2,
    comp3]
  rfl

theorem v78_at : val_main_v78 (F := Ideal) x0 (ix1 n) = Cert.Cov.rot (quat x0 n) 2 1 := by
  rw [
    val_main_v78_apply, val_main_v74_apply, val_main_v73_apply, val_main_v72_apply, val_main_cst_15_apply,
    val_main_v77_apply, val_main_v76_apply, val_main_v75_apply, val_main_cst_16_apply, comp0, comp1, comp2,
    comp3]
  rfl

theorem v87_at : val_main_v87 (F := Ideal) x0 (ix1 n) = Cert.Cov.rot (quat x0 n) 2 2 := by
  rw [
    val_main_v87_apply, val_main_v83_apply, val_main_v82_apply, val_main_cst_18_apply, val_main_v81_apply,
    val_main_v80_apply, val_main_v79_apply, val_main_cst_17_apply, val_main_v86_apply, val_main_v85_apply,
    val_main_v84_apply, val_main_cst_19_apply, comp1, comp2]
  rfl

/-! ## Stacking the entries: three rows of three, then the matrix -/

/-- The first row of the rotation matrix, at column `k`. -/
theorem row0_apply (k : Fin 3) : val_main_v37 (F := Ideal) x0 (ix2 n k) = Cert.Cov.rot (quat x0 n) 0 k := by
  unfold val_main_v37
  match k with
  | ⟨0, _⟩ =>
    have e : idx_main_v34 (ix2 n (0 : Fin 1)) = ix1 n := funext fun a => Fin.ext (by match a with | ⟨0, _⟩ => rfl)
    refine (concatenate_apply_piece (1 : Fin S4000000x3.rank) _ _ (ix2 n ⟨0, by decide⟩) 0 ?_ S4000000x1 (val_main_v34 (F := Ideal) x0) rfl rfl 0 rfl (ix2 n 0)
      (fun b hb => by match b with | ⟨0, _⟩ => rfl | ⟨1, _⟩ => exact absurd rfl hb) rfl).trans ?_
    · exact (by decide : (0 : Nat) < 3)
    · rw [val_main_v34_apply, e]; exact v19_at x0 n
  | ⟨1, _⟩ =>
    have e : idx_main_v35 (ix2 n (0 : Fin 1)) = ix1 n := funext fun a => Fin.ext (by match a with | ⟨0, _⟩ => rfl)
    refine (concatenate_apply_piece (1 : Fin S4000000x3.rank) _ _ (ix2 n ⟨1, by decide⟩) 1 ?_ S4000000x1 (val_main_v35 (F := Ideal) x0) rfl rfl 1 rfl (ix2 n 0)
      (fun b hb => by match b with | ⟨0, _⟩ => rfl | ⟨1, _⟩ => exact absurd rfl hb) rfl).trans ?_
    · exact (by decide : (1 : Nat) < 3)
    · rw [val_main_v35_apply, e]; exact v26_at x0 n
  | ⟨2, _⟩ =>
    have e : idx_main_v36 (ix2 n (0 : Fin 1)) = ix1 n := funext fun a => Fin.ext (by match a with | ⟨0, _⟩ => rfl)
    refine (concatenate_apply_piece (1 : Fin S4000000x3.rank) _ _ (ix2 n ⟨2, by decide⟩) 2 ?_ S4000000x1 (val_main_v36 (F := Ideal) x0) rfl rfl 2 rfl (ix2 n 0)
      (fun b hb => by match b with | ⟨0, _⟩ => rfl | ⟨1, _⟩ => exact absurd rfl hb) rfl).trans ?_
    · exact (by decide : (2 : Nat) < 3)
    · rw [val_main_v36_apply, e]; exact v33_at x0 n

/-- The second row. -/
theorem row1_apply (k : Fin 3) : val_main_v64 (F := Ideal) x0 (ix2 n k) = Cert.Cov.rot (quat x0 n) 1 k := by
  unfold val_main_v64
  match k with
  | ⟨0, _⟩ =>
    have e : idx_main_v61 (ix2 n (0 : Fin 1)) = ix1 n := funext fun a => Fin.ext (by match a with | ⟨0, _⟩ => rfl)
    refine (concatenate_apply_piece (1 : Fin S4000000x3.rank) _ _ (ix2 n ⟨0, by decide⟩) 0 ?_ S4000000x1 (val_main_v61 (F := Ideal) x0) rfl rfl 0 rfl (ix2 n 0)
      (fun b hb => by match b with | ⟨0, _⟩ => rfl | ⟨1, _⟩ => exact absurd rfl hb) rfl).trans ?_
    · exact (by decide : (0 : Nat) < 3)
    · rw [val_main_v61_apply, e]; exact v44_at x0 n
  | ⟨1, _⟩ =>
    have e : idx_main_v62 (ix2 n (0 : Fin 1)) = ix1 n := funext fun a => Fin.ext (by match a with | ⟨0, _⟩ => rfl)
    refine (concatenate_apply_piece (1 : Fin S4000000x3.rank) _ _ (ix2 n ⟨1, by decide⟩) 1 ?_ S4000000x1 (val_main_v62 (F := Ideal) x0) rfl rfl 1 rfl (ix2 n 0)
      (fun b hb => by match b with | ⟨0, _⟩ => rfl | ⟨1, _⟩ => exact absurd rfl hb) rfl).trans ?_
    · exact (by decide : (1 : Nat) < 3)
    · rw [val_main_v62_apply, e]; exact v53_at x0 n
  | ⟨2, _⟩ =>
    have e : idx_main_v63 (ix2 n (0 : Fin 1)) = ix1 n := funext fun a => Fin.ext (by match a with | ⟨0, _⟩ => rfl)
    refine (concatenate_apply_piece (1 : Fin S4000000x3.rank) _ _ (ix2 n ⟨2, by decide⟩) 2 ?_ S4000000x1 (val_main_v63 (F := Ideal) x0) rfl rfl 2 rfl (ix2 n 0)
      (fun b hb => by match b with | ⟨0, _⟩ => rfl | ⟨1, _⟩ => exact absurd rfl hb) rfl).trans ?_
    · exact (by decide : (2 : Nat) < 3)
    · rw [val_main_v63_apply, e]; exact v60_at x0 n

/-- The third row. -/
theorem row2_apply (k : Fin 3) : val_main_v91 (F := Ideal) x0 (ix2 n k) = Cert.Cov.rot (quat x0 n) 2 k := by
  unfold val_main_v91
  match k with
  | ⟨0, _⟩ =>
    have e : idx_main_v88 (ix2 n (0 : Fin 1)) = ix1 n := funext fun a => Fin.ext (by match a with | ⟨0, _⟩ => rfl)
    refine (concatenate_apply_piece (1 : Fin S4000000x3.rank) _ _ (ix2 n ⟨0, by decide⟩) 0 ?_ S4000000x1 (val_main_v88 (F := Ideal) x0) rfl rfl 0 rfl (ix2 n 0)
      (fun b hb => by match b with | ⟨0, _⟩ => rfl | ⟨1, _⟩ => exact absurd rfl hb) rfl).trans ?_
    · exact (by decide : (0 : Nat) < 3)
    · rw [val_main_v88_apply, e]; exact v71_at x0 n
  | ⟨1, _⟩ =>
    have e : idx_main_v89 (ix2 n (0 : Fin 1)) = ix1 n := funext fun a => Fin.ext (by match a with | ⟨0, _⟩ => rfl)
    refine (concatenate_apply_piece (1 : Fin S4000000x3.rank) _ _ (ix2 n ⟨1, by decide⟩) 1 ?_ S4000000x1 (val_main_v89 (F := Ideal) x0) rfl rfl 1 rfl (ix2 n 0)
      (fun b hb => by match b with | ⟨0, _⟩ => rfl | ⟨1, _⟩ => exact absurd rfl hb) rfl).trans ?_
    · exact (by decide : (1 : Nat) < 3)
    · rw [val_main_v89_apply, e]; exact v78_at x0 n
  | ⟨2, _⟩ =>
    have e : idx_main_v90 (ix2 n (0 : Fin 1)) = ix1 n := funext fun a => Fin.ext (by match a with | ⟨0, _⟩ => rfl)
    refine (concatenate_apply_piece (1 : Fin S4000000x3.rank) _ _ (ix2 n ⟨2, by decide⟩) 2 ?_ S4000000x1 (val_main_v90 (F := Ideal) x0) rfl rfl 2 rfl (ix2 n 0)
      (fun b hb => by match b with | ⟨0, _⟩ => rfl | ⟨1, _⟩ => exact absurd rfl hb) rfl).trans ?_
    · exact (by decide : (2 : Nat) < 3)
    · rw [val_main_v90_apply, e]; exact v87_at x0 n

/-- The rotation matrix of row `n`: the three rows stacked along the middle axis. -/
theorem rot_apply (i k : Fin 3) : val_main_v95 (F := Ideal) x0 (ix3 n i k) = Cert.Cov.rot (quat x0 n) i k := by
  unfold val_main_v95
  have e92 : idx_main_v92 (ix3 n 0 k) = ix2 n k := funext fun a => Fin.ext (by match a with | ⟨0, _⟩ => rfl | ⟨1, _⟩ => rfl)
  have e93 : idx_main_v93 (ix3 n 0 k) = ix2 n k := funext fun a => Fin.ext (by match a with | ⟨0, _⟩ => rfl | ⟨1, _⟩ => rfl)
  have e94 : idx_main_v94 (ix3 n 0 k) = ix2 n k := funext fun a => Fin.ext (by match a with | ⟨0, _⟩ => rfl | ⟨1, _⟩ => rfl)
  match i with
  | ⟨0, _⟩ =>
    refine (concatenate_apply_piece (1 : Fin S4000000x3x3.rank) _ _ (ix3 n ⟨0, by decide⟩ k) 0 ?_ S4000000x1x3 (val_main_v92 (F := Ideal) x0) rfl rfl 0 rfl (ix3 n 0 k)
      (fun b hb => by match b with | ⟨0, _⟩ => rfl | ⟨1, _⟩ => exact absurd rfl hb | ⟨2, _⟩ => rfl) rfl).trans ?_
    · exact (by decide : (0 : Nat) < 3)
    · rw [val_main_v92_apply, e92]; exact row0_apply x0 n k
  | ⟨1, _⟩ =>
    refine (concatenate_apply_piece (1 : Fin S4000000x3x3.rank) _ _ (ix3 n ⟨1, by decide⟩ k) 1 ?_ S4000000x1x3 (val_main_v93 (F := Ideal) x0) rfl rfl 1 rfl (ix3 n 0 k)
      (fun b hb => by match b with | ⟨0, _⟩ => rfl | ⟨1, _⟩ => exact absurd rfl hb | ⟨2, _⟩ => rfl) rfl).trans ?_
    · exact (by decide : (1 : Nat) < 3)
    · rw [val_main_v93_apply, e93]; exact row1_apply x0 n k
  | ⟨2, _⟩ =>
    refine (concatenate_apply_piece (1 : Fin S4000000x3x3.rank) _ _ (ix3 n ⟨2, by decide⟩ k) 2 ?_ S4000000x1x3 (val_main_v94 (F := Ideal) x0) rfl rfl 2 rfl (ix3 n 0 k)
      (fun b hb => by match b with | ⟨0, _⟩ => rfl | ⟨1, _⟩ => exact absurd rfl hb | ⟨2, _⟩ => rfl) rfl).trans ?_
    · exact (by decide : (2 : Nat) < 3)
    · rw [val_main_v94_apply, e94]; exact row2_apply x0 n k

/-! ## The scales, the scaled matrix and the contraction -/

/-- The scales spread over the matrix rows: at `(n, i, k)` the exponential of log-scale `k` of row `n`. -/
theorem scale_apply (i k : Fin 3) : val_main_v98 (F := Ideal) x1 (ix3 n i k) = Cert.Cov.scaleOf x1 n k := by
  rw [val_main_v98_apply, val_main_v97_apply, val_main_v96_apply]
  have e : idx_main_v97 (idx_main_v98 (ix3 n i k)) = ix2 n k :=
    funext fun a => Fin.ext (by match a with | ⟨0, _⟩ => rfl | ⟨1, _⟩ => rfl)
  rw [e]; rfl

/-- The rotation with its columns scaled. -/
theorem scaled_apply (i k : Fin 3) :
    val_main_v99 (F := Ideal) x0 x1 (ix3 n i k) = Cert.Cov.rot (quat x0 n) i k * Cert.Cov.scaleOf x1 n k := by
  rw [val_main_v99_apply, rot_apply, scale_apply]; rfl

/-- The contraction of the scaled matrix with itself over its column index. -/
theorem cov_apply (i j : Fin 3) :
    val_main_v100 (F := Ideal) x0 x1 (ix3 n i j) = Cert.Cov.cov (quat x0 n) (Cert.Cov.scaleOf x1 n) i j := by
  rw [val_main_v100_apply]
  unfold Cert.Cov.cov
  refine Finset.sum_congr rfl fun k _ => ?_
  have el : lidx_main_v100 (ix3 n i j) k = ix3 n i k :=
    funext fun a => Fin.ext (by match a with | ⟨0, _⟩ => rfl | ⟨1, _⟩ => rfl | ⟨2, _⟩ => rfl)
  have er : ridx_main_v100 (ix3 n i j) k = ix3 n j k :=
    funext fun a => Fin.ext (by match a with | ⟨0, _⟩ => rfl | ⟨1, _⟩ => rfl | ⟨2, _⟩ => rfl)
  rw [el, er, scaled_apply, scaled_apply]

/-! ## The result -/

/-- Where every quaternion component is a real number and every quaternion's squared length is positive, the
    reference's result is the specification's array. -/
theorem result_eq (hfin : ∀ i, ∃ r : ℝ, x0 i = (r : EReal))
    (hpos : ∀ n : Fin 4000000, 0 < Cert.Cov.hostSumsq (Cert.Cov.rowOf x0 n)) :
    val_main_v100 (F := Ideal) x0 x1 = Cert.Cov.G x0 x1 := by
  funext j
  obtain ⟨n, a, b, rfl⟩ : ∃ (n : Fin 4000000) (a b : Fin 3), j = ix3 n a b := ⟨j 0, j 1, j 2, eq_ix3 j⟩
  rw [cov_apply]
  show _ = Cert.Cov.cov (Cert.Cov.unitMul (Cert.Cov.rowOf x0 n)) (Cert.Cov.scaleOf x1 n) a b
  rw [show quat x0 n = Cert.Cov.unitMul (Cert.Cov.rowOf x0 n) from
    Cert.Cov.unitDiv_eq_unitMul (Cert.Cov.rowOf x0 n) (fun k => hfin (ix2 n k)) (hpos n)]

end Cert.ReferenceIdeal.CovValue

end
-- ==== Proof.lean ====
/-
  The covariance kernel against its reference: both compute, for every row `n`, the 3 × 3 matrix
  `(R S) (R S)ᵀ` of the rotation `R` of the normalised quaternion `rotation_raw[n]` with its columns scaled by
  `S = exp(scaling_raw[n])`.

  The kernel normalises by multiplying with the reciprocal square root of `w² + x² + y² + z²`, the reference by
  dividing by the square root of the same sum. On the extended reals these agree exactly where the sum of squares
  is a positive real (the precondition: every input finite, every quaternion of positive squared length); at the
  zero quaternion the reference divides zero by zero and the two differ. Everything after the normalisation is
  the same arithmetic term for term, up to the order of the two factors in the mirrored entries of the symmetric
  result. The kernel works on blocks of 6400 rows turned on their side and writes nine entries per row, which the
  program reshapes to 3 × 3; the reference builds the matrix by stacking and contracts it with itself.

  `Cert.Cov` states the result as one function of the two argument arrays; the kernel's run ends at it
  (`Cert.KernelIdeal.CovValue.run`), and so does the reference's where the precondition holds
  (`Cert.ReferenceIdeal.CovValue.result_eq` with `Cert.PreFacts.of_pre`).
-/
import proofs.«155020_j11218454577222_1_alg».proof.Defs
import proofs.«155020_j11218454577222_1_alg».proof.Proof.Gen.Kernel
import proofs.«155020_j11218454577222_1_alg».proof.Proof.Gen.Kernel.Skeleton
import proofs.«155020_j11218454577222_1_alg».proof.Proof.Gen.Kernel.Launch
import proofs.«155020_j11218454577222_1_alg».proof.Proof.Gen.Kernel.Points
import proofs.«155020_j11218454577222_1_alg».proof.Proof.Gen.Kernel.Frame
import proofs.«155020_j11218454577222_1_alg».proof.Proof.Gen.KernelIdeal
import proofs.«155020_j11218454577222_1_alg».proof.Proof.Gen.KernelIdeal.Skeleton
import proofs.«155020_j11218454577222_1_alg».proof.Proof.Gen.KernelIdeal.Launch
import proofs.«155020_j11218454577222_1_alg».proof.Proof.Gen.KernelIdeal.Points
import proofs.«155020_j11218454577222_1_alg».proof.Proof.Gen.KernelIdeal.Frame
import proofs.«155020_j11218454577222_1_alg».proof.Proof.Gen.ReferenceIdeal
import proofs.«155020_j11218454577222_1_alg».proof.Proof.Gen.ReferenceIdeal.Run
import proofs.«155020_j11218454577222_1_alg».proof.Proof.Gen.ReferenceIdeal.Read
import proofs.«155020_j11218454577222_1_alg».proof.Proof.Gen.Pre_finite_inputs
import proofs.«155020_j11218454577222_1_alg».proof.Proof.CovSpec
import proofs.«155020_j11218454577222_1_alg».proof.Proof.KernelArray
import proofs.«155020_j11218454577222_1_alg».proof.Proof.PreFacts
import proofs.«155020_j11218454577222_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a sequence of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments and satisfy the precondition, both programs end with the
    covariance array of the arguments: the kernel's run by its blocks, the reference's by its stages, joined by the
    agreement of the two normalisations on quaternions of positive squared length. -/
theorem algebraic : Cert.algebraic_KernelIdeal_ReferenceIdeal := by
  intro m ρ m' ρ' hpre hagree
  refine ⟨_, Cert.KernelIdeal.CovValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, (hagree c).1, (hagree c).2]
  obtain ⟨hfin, hpos⟩ := Cert.PreFacts.of_pre _ _ (hpre c)
  exact Cert.ReferenceIdeal.CovValue.result_eq _ _ hfin hpos

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
